-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S300000x256 : Shape := ⟨2, ![300000, 256]⟩
abbrev S2x300000 : Shape := ⟨2, ![2, 300000]⟩
abbrev S768x256 : Shape := ⟨2, ![768, 256]⟩
abbrev S256 : Shape := ⟨1, ![256]⟩
abbrev S256x256 : Shape := ⟨2, ![256, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S300000x256 : S_.BroadcastsInDim S300000x256 (![] : Fin 0 → Fin S300000x256.rank)
  reducesTo_S300000x256_S_d0_1 : S300000x256.ReducesTo [0, 1] S_
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256x256 .f32) (main_arg6 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S50000x256 .f32) (main_arg1 : FVec F S300000x256 .f32) (main_arg2 : IVec S2x300000 32) (main_arg3 : FVec F S768x256 .f32) (main_arg4 : FVec F S256 .f32) (main_arg5 : FVec F S256x256 .f32) (main_arg6 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S300000x256 .f32 := Host.absf main_arg1
  let main_cst_0 : FVec F S_ .f32 := constant S_ .f32 0x7F800000#32
  let main_v5 : FVec F S300000x256 .f32 := broadcastInDim S300000x256 ![] bcast_S_S300000x256 main_cst_0
  let main_v6 : IVec S300000x256 1 := cmpf .olt main_v4 main_v5
  let main_c_1 : IVec S_ 1 := constantI S_ 1 1#1
  let main_v7 : IVec S_ 1 := (fun x v => Host.reduce IntOp.andi x v reducesTo_S300000x256_S_d0_1 h_S_) main_v6 main_c_1
  let main_v8 : IVec S_ 1 := andi main_v3 main_v7
  let main_v9 : FVec F S768x256 .f32 := Host.absf main_arg3
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S50000x256 : Shape := ⟨2, ![50000, 256]⟩
abbrev S300000x256 : Shape := ⟨2, ![300000, 256]⟩
abbrev S2x300000 : Shape := ⟨2, ![2, 300000]⟩
abbrev S768x256 : Shape := ⟨2, ![768, 256]⟩
abbrev S256 : Shape := ⟨1, ![256]⟩
abbrev S256x256 : Shape := ⟨2, ![256, 256]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S1x256 : Shape := ⟨2, ![1, 256]⟩
abbrev S4000x256 : Shape := ⟨2, ![4000, 256]⟩

abbrev nBuf : Space → Nat
  | .hbm => 40
  | .vmem => 14
  | .smem => 0
  | _ => 0

abbrev bufTy : (tb : Table) → Fin (tcTables nBuf tb) → BufTy
  | .hbm, ⟨0, _⟩ => ⟨S50000x256, .f32⟩
  | .hbm, ⟨1, _⟩ => ⟨S300000x256, .f32⟩
  | .hbm, ⟨2, _⟩ => ⟨S2x300000, .i32⟩
  | .hbm, ⟨3, _⟩ => ⟨S768x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1x300000, .i32⟩
  | .hbm, ⟨8, _⟩ => ⟨S300000, .i32⟩
  | .hbm, ⟨9, _⟩ => ⟨S_, .i32⟩
  | .hbm, ⟨10, _⟩ => ⟨S300000, .i32⟩
  | .hbm, ⟨11, _⟩ => ⟨S300000, .i1⟩
  | .hbm, ⟨12, _⟩ => ⟨S_, .i32⟩
  | .hbm, ⟨13, _⟩ => ⟨S300000, .i32⟩
  | .hbm, ⟨14, _⟩ => ⟨S300000, .i32⟩
  | .hbm, ⟨15, _⟩ => ⟨S300000, .i32⟩
  | .hbm, ⟨16, _⟩ => ⟨S300000x1, .i32⟩
  | .hbm, ⟨17, _⟩ => ⟨S300000x256, .f32⟩
  | .hbm, ⟨18, _⟩ => ⟨S1x300000, .i32⟩
  | .hbm, ⟨19, _⟩ => ⟨S300000, .i32⟩
  | .hbm, ⟨20, _⟩ => ⟨S_, .i32⟩
  | .hbm, ⟨21, _⟩ => ⟨S300000, .i32⟩
  | .hbm, ⟨22, _⟩ => ⟨S300000, .i1⟩
  | .hbm, ⟨23, _⟩ => ⟨S_, .i32⟩
  | .hbm, ⟨24, _⟩ => ⟨S300000, .i32⟩
  | .hbm, ⟨25, _⟩ => ⟨S300000, .i32⟩
  | .hbm, ⟨26, _⟩ => ⟨S300000, .i32⟩
  | .hbm, ⟨27, _⟩ => ⟨S300000x1, .i32⟩
  | .hbm, ⟨28, _⟩ => ⟨S300000x256, .f32⟩
  | .hbm, ⟨29, _⟩ => ⟨S300000x256, .bf16⟩
  | .hbm, ⟨30, _⟩ => ⟨S300000x256, .bf16⟩
  | .hbm, ⟨31, _⟩ => ⟨S300000x256, .bf16⟩
  | .hbm, ⟨32, _⟩ => ⟨S768x256, .bf16⟩
  | .hbm, ⟨33, _⟩ => ⟨S256x256, .bf16⟩
  | .hbm, ⟨34, _⟩ => ⟨S256x256, .bf16⟩
  | .hbm, ⟨35, _⟩ => ⟨S256x256, .bf16⟩
  | .hbm, ⟨36, _⟩ => ⟨S256x256, .bf16⟩
  | .hbm, ⟨37, _⟩ => ⟨S1x256, .f32⟩
  | .hbm, ⟨38, _⟩ => ⟨S1x256, .f32⟩
  | .hbm, ⟨39, _⟩ => ⟨S300000x256, .f32⟩
  | .local _ .vmem, ⟨0, _⟩ => ⟨S4000x256, .bf16⟩
  | .local _ .vmem, ⟨1, _⟩ => ⟨S4000x256, .bf16⟩
  | .local _ .vmem, ⟨2, _⟩ => ⟨S4000x256, .bf16⟩
  | .local _ .vmem, ⟨3, _⟩ => ⟨S4000x256, .bf16⟩
  | .local _ .vmem, ⟨4, _⟩ => ⟨S4000x256, .bf16⟩
  | .local _ .vmem, ⟨5, _⟩ => ⟨S4000x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S4000x256, .f32⟩
  | .local _ .vmem, ⟨13, _⟩ => ⟨S4000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  slices_S2x300000_S1x300000_1_0 : S2x300000.Slices ![1, 0] S1x300000
  bitsLt_bf16_f32 : FTy.bits .bf16 < FTy.bits .f32
  slices_S768x256_S256x256_0_0 : S768x256.Slices ![0, 0] S256x256
  slices_S768x256_S256x256_256_0 : S768x256.Slices ![256, 0] S256x256
  slices_S768x256_S256x256_512_0 : S768x256.Slices ![512, 0] S256x256
  shapeCasts_S256_S1x256 : S256.ShapeCasts S1x256
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  gather_S50000x256_S300000x1_S300000x256_1_0_n_n_0_1_1256_wf : GatherDims.WF S50000x256 S300000x1 S300000x256 [1] [0] [] [0] [] 1 ![1, 256]
  dot_S4000x256_S256x256_S4000x256_1_0_0_1_n_n_wf : DotDims.WF S4000x256 S256x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S300000x256.size a
  hwx0_0 : ∀ i : grid0.Coords, EltTy.bits .bf16 = 32 ∨ (Rect.block (s := S300000x256) S4000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S300000x256.size a
  hwx0_1 : ∀ i : grid0.Coords, EltTy.bits .bf16 = 32 ∨ (Rect.block (s := S300000x256) S4000x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x256.size a ≤ S300000x256.size a
  hwx0_2 : ∀ i : grid0.Coords, EltTy.bits .bf16 = 32 ∨ (Rect.block (s := S300000x256) S4000x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x256.size a ≤ S300000x256.size a
  hwx0_9 : ∀ i : grid0.Coords, EltTy.bits .f32 = 32 ∨ (Rect.block (s := S300000x256) S4000x256.size (cc0_transform_9 i) (hinb0_9 i)).WholeWords (EltTy.packing .f32)

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf

abbrev win0_0 : Pipeline.Window sig grid0 :=
  Pipeline.Window.ofSpec (Memref.whole main_v18) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S4000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28) S4000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x256 : Shape := ⟨2, ![50000, 256]⟩
abbrev S300000x256 : Shape := ⟨2, ![300000, 256]⟩
abbrev S2x300000 : Shape := ⟨2, ![2, 300000]⟩
abbrev S768x256 : Shape := ⟨2, ![768, 256]⟩
abbrev S256 : Shape := ⟨1, ![256]⟩
abbrev S256x256 : Shape := ⟨2, ![256, 256]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x768 : Shape := ⟨2, ![300000, 768]⟩
abbrev S1x256 : Shape := ⟨2, ![1, 256]⟩

abbrev nBuf : Space → Nat
  | .hbm => 41
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S300000x256, .f32⟩
  | .hbm, ⟨2, _⟩ => ⟨S2x300000, .i32⟩
  | .hbm, ⟨3, _⟩ => ⟨S768x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1x300000, .i32⟩
  | .hbm, ⟨8, _⟩ => ⟨S300000, .i32⟩
  | .hbm, ⟨9, _⟩ => ⟨S_, .i32⟩
  | .hbm, ⟨10, _⟩ => ⟨S300000, .i32⟩
  | .hbm, ⟨11, _⟩ => ⟨S300000, .i1⟩
  | .hbm, ⟨12, _⟩ => ⟨S_, .i32⟩
  | .hbm, ⟨13, _⟩ => ⟨S300000, .i32⟩
  | .hbm, ⟨14, _⟩ => ⟨S300000, .i32⟩
  | .hbm, ⟨15, _⟩ => ⟨S300000, .i32⟩
  | .hbm, ⟨16, _⟩ => ⟨S300000x1, .i32⟩
  | .hbm, ⟨17, _⟩ => ⟨S300000x256, .f32⟩
  | .hbm, ⟨18, _⟩ => ⟨S1x300000, .i32⟩
  | .hbm, ⟨19, _⟩ => ⟨S300000, .i32⟩
  | .hbm, ⟨20, _⟩ => ⟨S_, .i32⟩
  | .hbm, ⟨21, _⟩ => ⟨S300000, .i32⟩
  | .hbm, ⟨22, _⟩ => ⟨S300000, .i1⟩
  | .hbm, ⟨23, _⟩ => ⟨S_, .i32⟩
  | .hbm, ⟨24, _⟩ => ⟨S300000, .i32⟩
  | .hbm, ⟨25, _⟩ => ⟨S300000, .i32⟩
  | .hbm, ⟨26, _⟩ => ⟨S300000, .i32⟩
  | .hbm, ⟨27, _⟩ => ⟨S300000x1, .i32⟩
  | .hbm, ⟨28, _⟩ => ⟨S300000x256, .f32⟩
  | .hbm, ⟨29, _⟩ => ⟨S300000x768, .f32⟩
  | .hbm, ⟨30, _⟩ => ⟨S300000x256, .f32⟩
  | .hbm, ⟨31, _⟩ => ⟨S1x256, .f32⟩
  | .hbm, ⟨32, _⟩ => ⟨S300000x256, .f32⟩
  | .hbm, ⟨33, _⟩ => ⟨S300000x256, .f32⟩
  | .hbm, ⟨34, _⟩ => ⟨S_, .f32⟩
  | .hbm, ⟨35, _⟩ => ⟨S300000x256, .f32⟩
  | .hbm, ⟨36, _⟩ => ⟨S300000x256, .f32⟩
  | .hbm, ⟨37, _⟩ => ⟨S300000x256, .f32⟩
  | .hbm, ⟨38, _⟩ => ⟨S1x256, .f32⟩
  | .hbm, ⟨39, _⟩ => ⟨S300000x256, .f32⟩
  | .hbm, ⟨40, _⟩ => ⟨S300000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  slices_S2x300000_S1x300000_1_0 : S2x300000.Slices ![1, 0] S1x300000
  concatenates_S300000x256_S300000x256_S300000x256_S300000x768_d1 : Shape.Concatenates [S300000x256, S300000x256, S300000x256] S300000x768 1
  bcast_S256_S1x256_1 : S256.BroadcastsInDim S1x256 (![1] : Fin 1 → Fin S1x256.rank)
  bcast_S1x256_S300000x256_0_1 : S1x256.BroadcastsInDim S300000x256 (![0, 1] : Fin 2 → Fin S300000x256.rank)
  bcast_S_S300000x256 : S_.BroadcastsInDim S300000x256 (![] : Fin 0 → Fin S300000x256.rank)
  gather_S50000x256_S300000x1_S300000x256_1_0_n_n_0_1_1256_wf : GatherDims.WF S50000x256 S300000x1 S300000x256 [1] [0] [] [0] [] 1 ![1, 256]
  dot_S300000x768_S768x256_S300000x256_1_0_0_1_n_n_wf : DotDims.WF S300000x768 S768x256 S300000x256 [1] [0] [0] [1] [] []
  dot_S300000x256_S256x256_S300000x256_1_0_0_1_n_n_wf : DotDims.WF S300000x256 S256x256 S300000x256 [1] [0] [0] [1] [] []

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def dot_S300000x768_S768x256_S300000x256_1_0_0_1_n_n : DotDims S300000x768 S768x256 S300000x256 where
  lhsContracting := [1]
  rhsContracting := [0]
  lhsNonContracting := [0]
  rhsNonContracting := [1]
  lhsBatch := []
  rhsBatch := []
  wf := dot_S300000x768_S768x256_S300000x256_1_0_0_1_n_n_wf
def dot_S300000x256_S256x256_S300000x256_1_0_0_1_n_n : DotDims S300000x256 S256x256 S300000x256 where
  lhsContracting := [1]
  rhsContracting := [0]
  lhsNonContracting := [0]
  rhsNonContracting := [1]
  lhsBatch := []
  rhsBatch := []
  wf := dot_S300000x256_S256x256_S300000x256_1_0_0_1_n_n_wf

class Facts : Prop extends Facts₀ where

variable [Facts]
-- ==== Proof.EdgeMlp.lean ====
/-
  The edge update of one message-passing layer, row by row, over the extended reals.

  An edge carries three feature rows of length 256: the row of its source node, the row of its destination node, and its
  own. The update joins them into one row of length 768, applies a dense layer 768 -> 256 with a ramp (the maximum with a
  threshold), and then a dense layer 256 -> 256:

      hidden j = max (sum_{K < 768} joined K * W1 K j + b1 j) z,      out j = sum_{k < 256} hidden k * W2 k j + b2 j.

  The joined row never has to be formed: the sum over its 768 positions is the sum over the source block (positions
  0..255), plus the sum over the destination block (256..511), plus the sum over the edge block (512..767), each against
  the matching 256 rows of W1. That regrouping of one finite sum uses only that addition of extended reals is associative
  and commutative, so it holds at infinite entries too and no finiteness of the inputs is needed.
-/
import Mathlib.Algebra.BigOperators.Fin
import Idealize.ShloMosaic.PureOps.Ideal.Laws
import Idealize.ShloMosaic.Lib.ValueIdx

noncomputable section

namespace Cert.EdgeMlp

open Idealize.ShloMosaic Idealize.ShloMosaic.ValueIdx

/-- Position of entry `k` of the source row inside the joined row. -/
def inSrc (k : Fin 256) : Fin 768 := ⟨k.val, by omega⟩
/-- Position of entry `k` of the destination row inside the joined row. -/
def inDst (k : Fin 256) : Fin 768 := ⟨256 + k.val, by omega⟩
/-- Position of entry `k` of the edge's own row inside the joined row. -/
def inEdge (k : Fin 256) : Fin 768 := ⟨512 + k.val, by omega⟩

/-- Hidden unit `j` of one edge: the three row blocks `s`, `d`, `e` against the three row blocks `wa`, `wb`, `wc` of the
    first weight matrix, summed in that order, plus the bias, through the ramp with threshold `z`. -/
def hidden (z : EReal) (s d e : Fin 256 → EReal) (wa wb wc : Fin 256 → Fin 256 → EReal) (b1 : Fin 256 → EReal)
    (j : Fin 256) : EReal :=
  max ((((∑ k, s k * wa k j) + ∑ k, d k * wb k j) + ∑ k, e k * wc k j) + b1 j) z

/-- Output entry `j` of one edge: the hidden row against the second weight matrix, plus the bias. -/
def out (z : EReal) (s d e : Fin 256 → EReal) (wa wb wc : Fin 256 → Fin 256 → EReal) (b1 : Fin 256 → EReal)
    (w2 : Fin 256 → Fin 256 → EReal) (b2 : Fin 256 → EReal) (j : Fin 256) : EReal :=
  (∑ k, hidden z s d e wa wb wc b1 k * w2 k j) + b2 j

/-- `out` depends on its rows, weights and biases only through their entries. -/
theorem out_congr {z : EReal} {s s' d d' e e' : Fin 256 → EReal} {wa wa' wb wb' wc wc' : Fin 256 → Fin 256 → EReal}
    {b1 b1' : Fin 256 → EReal} {w2 w2' : Fin 256 → Fin 256 → EReal} {b2 b2' : Fin 256 → EReal} {j j' : Fin 256}
    (hs : ∀ k, s k = s' k) (hd : ∀ k, d k = d' k) (he : ∀ k, e k = e' k)
    (hwa : ∀ k j, wa k j = wa' k j) (hwb : ∀ k j, wb k j = wb' k j) (hwc : ∀ k j, wc k j = wc' k j)
    (hb1 : ∀ j, b1 j = b1' j) (hw2 : ∀ k j, w2 k j = w2' k j) (hb2 : ∀ j, b2 j = b2' j) (hj : j = j') :
    out z s d e wa wb wc b1 w2 b2 j = out z s' d' e' wa' wb' wc' b1' w2' b2' j' := by
  obtain rfl : s = s' := funext hs
  obtain rfl : d = d' := funext hd
  obtain rfl : e = e' := funext he
  obtain rfl : wa = wa' := funext fun k => funext (hwa k)
  obtain rfl : wb = wb' := funext fun k => funext (hwb k)
  obtain rfl : wc = wc' := funext fun k => funext (hwc k)
  obtain rfl : b1 = b1' := funext hb1
  obtain rfl : w2 = w2' := funext fun k => funext (hw2 k)
  obtain rfl : b2 = b2' := funext hb2
  rw [hj]

/-- A sum over the 768 positions of a joined row is the sum over its three blocks of 256, in order. -/
theorem sum_joined (f : Fin 768 → EReal) :
    ∑ K : Fin 768, f K = ((∑ k : Fin 256, f (inSrc k)) + ∑ k : Fin 256, f (inDst k)) + ∑ k : Fin 256, f (inEdge k) := by
  have h := Fin.sum_univ_add (a := 256 + 256) (b := 256) (fun K : Fin (256 + 256 + 256) => f K)
  rw [Fin.sum_univ_add (a := 256) (b := 256)] at h
  exact h

/-- The first dense layer over the joined row is the three block sums: if `joined` holds `s`, `d`, `e` at the three
    blocks' positions, its product with column `j` of `W1` is the regrouped sum `hidden` is written with. -/
theorem joined_dot (joined : Fin 768 → EReal) (s d e : Fin 256 → EReal) (W1 : Fin 768 → Fin 256 → EReal) (j : Fin 256)
    (hs : ∀ k, joined (inSrc k) = s k) (hd : ∀ k, joined (inDst k) = d k) (he : ∀ k, joined (inEdge k) = e k) :
    ∑ K : Fin 768, joined K * W1 K j
      = ((∑ k, s k * W1 (inSrc k) j) + ∑ k, d k * W1 (inDst k) j) + ∑ k, e k * W1 (inEdge k) j := by
  rw [sum_joined fun K => joined K * W1 K j]
  simp only [hs, hd, he]

/-- The update of all `E` edges at once: entry (p, j) of the result is `out` of edge `p`'s three rows — row `p` of the
    gathered source rows, of the gathered destination rows and of the edge features — at `j`, the first weight matrix
    read in its three blocks of 256 rows. -/
def edgeOut {E : ℕ} (z : EReal) (src dst edge : (⟨2, ![E, 256]⟩ : Shape).Idx → EReal)
    (W1 : (⟨2, ![768, 256]⟩ : Shape).Idx → EReal) (b1 : (⟨1, ![256]⟩ : Shape).Idx → EReal)
    (W2 : (⟨2, ![256, 256]⟩ : Shape).Idx → EReal) (b2 : (⟨1, ![256]⟩ : Shape).Idx → EReal) :
    (⟨2, ![E, 256]⟩ : Shape).Idx → EReal := fun i =>
  out z (fun k => src (ix2 (i 0) k)) (fun k => dst (ix2 (i 0) k)) (fun k => edge (ix2 (i 0) k))
    (fun k j => W1 (ix2 (inSrc k) j)) (fun k j => W1 (ix2 (inDst k) j)) (fun k j => W1 (ix2 (inEdge k) j))
    (fun j => b1 (ix1 j)) (fun k j => W2 (ix2 k j)) (fun j => b2 (ix1 j)) (i 1)

end Cert.EdgeMlp

end
-- ==== Proof.LibPlainDot.lean ====
/-
  A plain two-dimensional contraction read at one element over the extended reals.

  For the dimension numbers of an [M, K] by [K, N] product (the left operand's axis 1 contracted against the right
  operand's axis 0, no batch axis), entry (p, q) of the product is the sum over k of lhs (p, k) · rhs (k, q). This holds
  of a kernel's matrix product into a zero accumulator and of the host's dot_general alike, whatever the precision
  attribute: at the extended reals both are the textbook contraction. Generic in the three extents.
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.plain M K N).contr.Idx) :
    ((DotDims.plain M K N).lhsIdx i r 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Axis 1 of the left operand is the contracted one: it reads the contraction position. -/
theorem lhs_axis1 (i : (⟨2, ![M, N]⟩ : Shape).Idx) (r : (DotDims.plain M K N).contr.Idx) :
    ((DotDims.plain M K N).lhsIdx i r 1).val = (r ⟨0, Nat.one_pos⟩).val :=
  (DotDims.plain M K N).lhsIdx_val_of_single rfl i r

/-- Axis 0 of the right operand is the contracted one. -/
theorem rhs_axis0 (i : (⟨2, ![M, N]⟩ : Shape).Idx) (r : (DotDims.plain M K N).contr.Idx) :
    ((DotDims.plain M K N).rhsIdx i r 0).val = (r ⟨0, Nat.one_pos⟩).val :=
  (DotDims.plain M K N).rhsIdx_val_of_single rfl i r

/-- Axis 1 of the right operand is free: it reads the output's column coordinate. -/
theorem rhs_axis1 (i : (⟨2, ![M, N]⟩ : Shape).Idx) (r : (DotDims.plain M K N).contr.Idx) :
    ((DotDims.plain M K N).rhsIdx i r 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum over its one-axis index shape, re-indexed by that axis' coordinate: the sum over
    `k : Fin K` of lhs (p, k) · rhs (k, q). -/
theorem sum_eq (lhs : (⟨2, ![M, K]⟩ : Shape).Idx → EReal) (rhs : (⟨2, ![K, N]⟩ : Shape).Idx → EReal)
    (p : Fin M) (q : Fin N) :
    (∑ r : (DotDims.plain M K N).contr.Idx,
        lhs ((DotDims.plain M K N).lhsIdx (ix2 p q) r) * rhs ((DotDims.plain M K N).rhsIdx (ix2 p q) r))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_axis0 M K N _ _).trans hk
      | ⟨1, _⟩ => exact rhs_axis1 M K N _ _)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_eq M K N lhs rhs p q

end Cert.Lib.PlainDot

end
-- ==== Proof.KernelRows.lean ====
/-
  What the kernel's body stores, read at one entry, is the edge update `EdgeMlp.out` of the rows it loaded.

  The body loads a tile of 4000 source rows, destination rows and edge rows, the three 256-row blocks of the first weight
  matrix, the two biases as one-row matrices and the second weight matrix. Entry (r, q) of what it stores is: the three
  products of row r of each tile with its weight block, added in order, plus the first bias (its one row repeated down
  the tile), through the maximum with the zero word; that hidden row against column q of the second weight matrix; plus
  the second bias. Each product into the zero accumulator is the plain sum over the contracted position
  (`Cert.Lib.PlainDot.matmul_zero_apply`), and narrowing a value to a shorter float format changes nothing over the
  extended reals.
-/
import proofs.«144119_j45509473468801_1_alg».proof.Proof.Gen.KernelIdeal.Skeleton
import proofs.«144119_j45509473468801_1_alg».proof.Proof.EdgeMlp
import proofs.«144119_j45509473468801_1_alg».proof.Proof.LibPlainDot
import Idealize.ShloMosaic.Lib.Pipeline.Value
import Idealize.ShloMosaic.Lib.ValueIdx
import Idealize.ShloMosaic.Lib.ValueLayout

noncomputable section

namespace Cert.KernelIdeal.Rows

open Cert.KernelIdeal Cert.KernelIdeal.Gen Idealize.ShloMosaic Idealize.ShloMosaic.ValueIdx
open Cert.EdgeMlp

/-- One of the body's four matrix products — a 4000-row tile against a 256 x 256 weight block, into the zero
    accumulator — at entry (r, q): the sum over the 256 contracted positions. -/
theorem product_apply (lhs : FVec Ideal S4000x256 .bf16) (rhs : FVec Ideal S256x256 .bf16) (r : Fin 4000) (q : Fin 256) :
    matmul dot_S4000x256_S256x256_S4000x256_1_0_0_1_n_n none lhs rhs (constant S4000x256 .f32 0x00000000#32) (ix2 r q)
      = ∑ k : Fin 256, lhs (ix2 r k) * rhs (ix2 k q) :=
  Cert.Lib.PlainDot.matmul_zero_apply 4000 256 256 none lhs rhs r q

/-- THE BODY'S STORED VALUE at entry (r, q) of the tile. -/
theorem pay_ix2 (x0 x1 x2 : Vec Ideal S4000x256 .bf16) (x3 x4 x5 : Vec Ideal S256x256 .bf16) (x6 : Vec Ideal S1x256 .f32)
    (x7 : Vec Ideal S256x256 .bf16) (x8 : Vec Ideal S1x256 .f32) (r : Fin 4000) (q : Fin 256) :
    k0_pay1 (F := Ideal) x0 x1 x2 x3 x4 x5 x6 x7 x8 (ix2 r q)
      = out (Ideal.ofBits .f32 0x00000000#32) (fun k => x0 (ix2 r k)) (fun k => x1 (ix2 r k)) (fun k => x2 (ix2 r k))
          (fun k j => x3 (ix2 k j)) (fun k j => x4 (ix2 k j)) (fun k j => x5 (ix2 k j)) (fun j => x6 (ix2 (0 : Fin 1) j))
          (fun k j => x7 (ix2 k j)) (fun j => x8 (ix2 (0 : Fin 1) j)) q := by
  unfold k0_pay1
  simp only [shapeCast_self, addf_apply, product_apply, truncf_apply, maximumf_apply, broadcast_apply,
    broadcastTo_1b_ab_apply]
  rfl

/-- The same at any index of the tile, its two coordinates read off. -/
theorem pay_apply (x0 x1 x2 : Vec Ideal S4000x256 .bf16) (x3 x4 x5 : Vec Ideal S256x256 .bf16) (x6 : Vec Ideal S1x256 .f32)
    (x7 : Vec Ideal S256x256 .bf16) (x8 : Vec Ideal S1x256 .f32) (y : S4000x256.Idx) :
    k0_pay1 (F := Ideal) x0 x1 x2 x3 x4 x5 x6 x7 x8 y
      = out (Ideal.ofBits .f32 0x00000000#32) (fun k => x0 (ix2 (y 0) k)) (fun k => x1 (ix2 (y 0) k))
          (fun k => x2 (ix2 (y 0) k)) (fun k j => x3 (ix2 k j)) (fun k j => x4 (ix2 k j)) (fun k j => x5 (ix2 k j))
          (fun j => x6 (ix2 (0 : Fin 1) j)) (fun k j => x7 (ix2 k j)) (fun j => x8 (ix2 (0 : Fin 1) j)) (y 1) := by
  obtain ⟨r, q, rfl⟩ : ∃ (r : Fin 4000) (q : Fin 256), y = ix2 r q := ⟨y 0, y 1, eq_ix2 y⟩
  exact pay_ix2 x0 x1 x2 x3 x4 x5 x6 x7 x8 r q

end Cert.KernelIdeal.Rows

end
-- ==== Proof.KernelEntry.lean ====
/-
  The arrays the kernel's region is launched on, in terms of the program's arguments.

  Before the region the program gathers the source rows and the destination rows of the node table (an index below zero
  wrapped by the table's length first), narrows them, the edge rows and both weight matrices to the shorter float format
  (no change over the extended reals), cuts the first weight matrix into its three blocks of 256 rows, and views each bias
  as a one-row matrix. Read at an entry: the three tiles' arrays are the gathered source rows, the gathered destination
  rows and the edge rows; weight block number b at (k, j) is the first weight matrix at (256 b + k, j); the one-row biases
  at (0, j) are the biases at j.
-/
import proofs.«144119_j45509473468801_1_alg».proof.Proof.Gen.KernelIdeal.Frame
import proofs.«144119_j45509473468801_1_alg».proof.Proof.EdgeMlp
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx
open Cert.EdgeMlp

/-- Row `r` (0 for sources, 1 for destinations) of the index array as a vector of node numbers, an entry below zero
    moved up by the number of nodes. -/
def wrapped (off : Fin 2 → Nat) (hs : S2x300000.Slices off S1x300000) (x2 : (⟨S2x300000, .i32⟩ : BufTy).Contents (Elt Ideal)) :
    (⟨S300000, .i32⟩ : BufTy).Contents (Elt Ideal) :=
  select (cmpi .slt (shapeCast _ (extractStridedSlice S1x300000 off x2 hs) shapeCasts_S1x300000_S300000)
      (broadcastInDim S300000 ![] bcast_S_S300000 (constantI S_ 32 0#32)))
    (addi (shapeCast _ (extractStridedSlice S1x300000 off x2 hs) shapeCasts_S1x300000_S300000)
      (broadcastInDim S300000 ![] bcast_S_S300000 (constantI S_ 32 50000#32)))
    (shapeCast _ (extractStridedSlice S1x300000 off x2 hs) shapeCasts_S1x300000_S300000)

/-- The rows of the node table at the node numbers `ix`. -/
def rowsAt (x0 : (⟨S50000x256, .f32⟩ : BufTy).Contents (Elt Ideal)) (ix : (⟨S300000, .i32⟩ : BufTy).Contents (Elt Ideal)) :
    (⟨S300000x256, .f32⟩ : BufTy).Contents (Elt Ideal) :=
  Host.gather gather_S50000x256_S300000x1_S300000x256_1_0_n_n_0_1_1256 x0
    (broadcastInDim S300000x1 ![0] bcast_S300000_S300000x1_0 ix)

/-- The gathered source rows. -/
def srcRows (x0 : (⟨S50000x256, .f32⟩ : BufTy).Contents (Elt Ideal)) (x2 : (⟨S2x300000, .i32⟩ : BufTy).Contents (Elt Ideal)) :
    (⟨S300000x256, .f32⟩ : BufTy).Contents (Elt Ideal) :=
  rowsAt x0 (wrapped ![0, 0] slices_S2x300000_S1x300000_0_0 x2)

/-- The gathered destination rows. -/
def dstRows (x0 : (⟨S50000x256, .f32⟩ : BufTy).Contents (Elt Ideal)) (x2 : (⟨S2x300000, .i32⟩ : BufTy).Contents (Elt Ideal)) :
    (⟨S300000x256, .f32⟩ : BufTy).Contents (Elt Ideal) :=
  rowsAt x0 (wrapped ![1, 0] slices_S2x300000_S1x300000_1_0 x2)

variable (m : (ℓ : Loc nD τ sig) → Buf (Elt Ideal) ℓ)

set_option maxHeartbeats 2000000 in
/-- The first tile window's array: the gathered source rows. -/
theorem src_apply (c : Dev nD) (i : S300000x256.Idx) :
    V m c main_v18 i = srcRows (m ((c : Thread nD τ).loc main_arg0)) (m ((c : Thread nD τ).loc main_arg2)) i := by
  have e : @Eq (FVec Ideal S300000x256 .bf16) (V m c main_v18)
      (truncf .bf16 (srcRows (m ((c : Thread nD τ).loc main_arg0)) (m ((c : Thread nD τ).loc main_arg2))) bitsLt_bf16_f32) := by
    dsimp only [V, hostOps0]; after_results; rfl
  rw [e]; rfl

set_option maxHeartbeats 2000000 in
/-- The second tile window's array: the gathered destination rows. -/
theorem dst_apply (c : Dev nD) (i : S300000x256.Idx) :
    V m c main_v19 i = dstRows (m ((c : Thread nD τ).loc main_arg0)) (m ((c : Thread nD τ).loc main_arg2)) i := by
  have e : @Eq (FVec Ideal S300000x256 .bf16) (V m c main_v19)
      (truncf .bf16 (dstRows (m ((c : Thread nD τ).loc main_arg0)) (m ((c : Thread nD τ).loc main_arg2))) bitsLt_bf16_f32) := by
    dsimp only [V, hostOps0]; after_results; rfl
  rw [e]; rfl

/-- The third tile window's array: the edge rows. -/
theorem edge_apply (c : Dev nD) (i : S300000x256.Idx) :
    V m c main_v20 i = m ((c : Thread nD τ).loc main_arg1) i := by
  have e : @Eq (FVec Ideal S300000x256 .bf16) (V m c main_v20)
      (truncf .bf16 (m ((c : Thread nD τ).loc main_arg1)) bitsLt_bf16_f32) := by
    dsimp only [V, hostOps0]; after_results
  rw [e]; rfl

/-- The first weight block: rows 0..255 of the first weight matrix. -/
theorem w1a_apply (c : Dev nD) (k j : Fin 256) :
    V m c main_v22 (ix2 k j) = m ((c : Thread nD τ).loc main_arg3) (ix2 (inSrc k) j) := by
  have e : @Eq (FVec Ideal S256x256 .bf16) (V m c main_v22)
      (extractStridedSlice S256x256 ![0, 0] (truncf .bf16 (m ((c : Thread nD τ).loc main_arg3)) bitsLt_bf16_f32)
          slices_S768x256_S256x256_0_0) := by
    dsimp only [V, hostOps0]; after_results
  rw [e]
  exact slice2_axis0_apply 0 _ slices_S768x256_S256x256_0_0 k j (inSrc k) (by show k.val = 0 + k.val; omega)

/-- The second weight block: rows 256..511 of the first weight matrix. -/
theorem w1b_apply (c : Dev nD) (k j : Fin 256) :
    V m c main_v23 (ix2 k j) = m ((c : Thread nD τ).loc main_arg3) (ix2 (inDst k) j) := by
  have e : @Eq (FVec Ideal S256x256 .bf16) (V m c main_v23)
      (extractStridedSlice S256x256 ![256, 0] (truncf .bf16 (m ((c : Thread nD τ).loc main_arg3)) bitsLt_bf16_f32)
          slices_S768x256_S256x256_256_0) := by
    dsimp only [V, hostOps0]; after_results
  rw [e]
  exact slice2_axis0_apply 256 _ slices_S768x256_S256x256_256_0 k j (inDst k) rfl

/-- The third weight block: rows 512..767 of the first weight matrix. -/
theorem w1c_apply (c : Dev nD) (k j : Fin 256) :
    V m c main_v24 (ix2 k j) = m ((c : Thread nD τ).loc main_arg3) (ix2 (inEdge k) j) := by
  have e : @Eq (FVec Ideal S256x256 .bf16) (V m c main_v24)
      (extractStridedSlice S256x256 ![512, 0] (truncf .bf16 (m ((c : Thread nD τ).loc main_arg3)) bitsLt_bf16_f32)
          slices_S768x256_S256x256_512_0) := by
    dsimp only [V, hostOps0]; after_results
  rw [e]
  exact slice2_axis0_apply 512 _ slices_S768x256_S256x256_512_0 k j (inEdge k) rfl

/-- The second weight matrix, narrowed. -/
theorem w2_apply (c : Dev nD) (i : S256x256.Idx) :
    V m c main_v25 i = m ((c : Thread nD τ).loc main_arg5) i := by
  have e : @Eq (FVec Ideal S256x256 .bf16) (V m c main_v25)
      (truncf .bf16 (m ((c : Thread nD τ).loc main_arg5)) bitsLt_bf16_f32) := by
    dsimp only [V, hostOps0]; after_results
  rw [e]; rfl

/-- The first bias as a one-row matrix. -/
theorem b1_apply (c : Dev nD) (j : Fin 256) :
    V m c main_v26 (ix2 (0 : Fin 1) j) = m ((c : Thread nD τ).loc main_arg4) (ix1 j) := by
  have e : (V m c main_v26 : (⟨S1x256, .f32⟩ : BufTy).Contents (Elt Ideal))
      = shapeCast S1x256 (m ((c : Thread nD τ).loc main_arg4)) shapeCasts_S256_S1x256 := by
    dsimp only [V, hostOps0]; after_results; rfl
  rw [e]
  exact shapeCast_a_1a_apply _ shapeCasts_S256_S1x256 0 j

/-- The second bias as a one-row matrix. -/
theorem b2_apply (c : Dev nD) (j : Fin 256) :
    V m c main_v27 (ix2 (0 : Fin 1) j) = m ((c : Thread nD τ).loc main_arg6) (ix1 j) := by
  have e : (V m c main_v27 : (⟨S1x256, .f32⟩ : BufTy).Contents (Elt Ideal))
      = shapeCast S1x256 (m ((c : Thread nD τ).loc main_arg6)) shapeCasts_S256_S1x256 := by
    dsimp only [V, hostOps0]; after_results; rfl
  rw [e]
  exact shapeCast_a_1a_apply _ shapeCasts_S256_S1x256 0 j

end Cert.KernelIdeal.Entry

end
-- ==== Proof.KernelBlocks.lean ====
/-
  The kernel's result array after the run is the edge update `EdgeMlp.edgeOut` of the program's arguments.

  The grid has 75 points; point t reads rows 4000 t .. 4000 t + 3999 of the three row arrays, the weight blocks and the
  biases whole, and writes rows 4000 t .. 4000 t + 3999 of the result. So what point t writes back is block t of ONE
  function of the arrays the region was launched on (`atEntry`: entry (p, j) is `EdgeMlp.out` of row p of the three row
  arrays at j), the 75 blocks cover every row (row p lies in block p / 4000), and the result array ends holding that
  function. Read through what the host prefix put in those arrays (`Entry`), it is the edge update of the arguments.
-/
import proofs.«144119_j45509473468801_1_alg».proof.Proof.Gen.KernelIdeal.Value
import proofs.«144119_j45509473468801_1_alg».proof.Proof.KernelRows
import proofs.«144119_j45509473468801_1_alg».proof.Proof.KernelEntry

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.EdgeMlp

variable (m : (ℓ : Loc nD τ sig) → Buf (Elt Ideal) ℓ) (ρ : Dev nD → PrngReg)

theorem zero_offsets : (![0, 0] : Fin 2 → Nat) = fun _ => 0 := funext fun a => by fin_cases a <;> rfl

/-- The result as ONE function of the arrays the region is launched on: entry (p, j) is the edge update of row p of the
    three row arrays, with the weight blocks, the one-row biases and the second weight matrix as they stand there. -/
def atEntry (c : Dev nD) : S300000x256.Idx → Elt Ideal .f32 := fun i =>
  out (Ideal.ofBits .f32 0x00000000#32) (fun k => V m c main_v18 (ix2 (i 0) k)) (fun k => V m c main_v19 (ix2 (i 0) k))
    (fun k => V m c main_v20 (ix2 (i 0) k)) (fun k j => V m c main_v22 (ix2 k j)) (fun k j => V m c main_v23 (ix2 k j))
    (fun k j => V m c main_v24 (ix2 k j)) (fun j => V m c main_v26 (ix2 (0 : Fin 1) j)) (fun k j => V m c main_v25 (ix2 k j))
    (fun j => V m c main_v27 (ix2 (0 : Fin 1) j)) (i 1)

/-- The index maps over the grid: the three row windows and the result window are at block t on the row axis, every
    other block index is 0. -/
theorem idx_facts : ∀ t : Fin cfg0.N,
    win0_9.index t (0 : Fin 2) = t.val ∧ win0_9.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Row `r` of point `t`'s block of the source rows is row `4000 t + r` of the array. -/
theorem tile0 (c : Dev nD) (t : Fin cfg0.N) (r : Fin 4000) (k : Fin 256) (R : Fin 300000)
    (hR : R.val = t.val * 4000 + r.val) : iblk m c 0 t (ix2 r k) = V m c main_v18 (ix2 R k) := by
  obtain ⟨f90, f91, f00, f01, f10, f11, f20, f21, -⟩ := idx_facts t
  show V m c main_v18 (((cfg0.win 0).blk t).view.emb (ix2 r k)) = _
  refine congrArg (V m c main_v18) (funext fun a => Fin.ext ?_)
  match a with
  | ⟨0, _⟩ =>
    show win0_0.index t (0 : Fin 2) * 4000 + 1 * r.val = R.val
    omega
  | ⟨1, _⟩ =>
    show win0_0.index t (1 : Fin 2) * 256 + 1 * k.val = k.val
    omega

/-- Row `r` of point `t`'s block of the destination rows is row `4000 t + r` of the array. -/
theorem tile1 (c : Dev nD) (t : Fin cfg0.N) (r : Fin 4000) (k : Fin 256) (R : Fin 300000)
    (hR : R.val = t.val * 4000 + r.val) : iblk m c 1 t (ix2 r k) = V m c main_v19 (ix2 R k) := by
  obtain ⟨f90, f91, f00, f01, f10, f11, f20, f21, -⟩ := idx_facts t
  show V m c main_v19 (((cfg0.win 1).blk t).view.emb (ix2 r k)) = _
  refine congrArg (V m c main_v19) (funext fun a => Fin.ext ?_)
  match a with
  | ⟨0, _⟩ =>
    show win0_1.index t (0 : Fin 2) * 4000 + 1 * r.val = R.val
    omega
  | ⟨1, _⟩ =>
    show win0_1.index t (1 : Fin 2) * 256 + 1 * k.val = k.val
    omega

/-- Row `r` of point `t`'s block of the edge rows is row `4000 t + r` of the array. -/
theorem tile2 (c : Dev nD) (t : Fin cfg0.N) (r : Fin 4000) (k : Fin 256) (R : Fin 300000)
    (hR : R.val = t.val * 4000 + r.val) : iblk m c 2 t (ix2 r k) = V m c main_v20 (ix2 R k) := by
  obtain ⟨f90, f91, f00, f01, f10, f11, f20, f21, -⟩ := idx_facts t
  show V m c main_v20 (((cfg0.win 2).blk t).view.emb (ix2 r k)) = _
  refine congrArg (V m c main_v20) (funext fun a => Fin.ext ?_)
  match a with
  | ⟨0, _⟩ =>
    show win0_2.index t (0 : Fin 2) * 4000 + 1 * r.val = R.val
    omega
  | ⟨1, _⟩ =>
    show win0_2.index t (1 : Fin 2) * 256 + 1 * k.val = k.val
    omega

/-- Every point's block of the first weight block is the whole array. -/
theorem whole3 (c : Dev nD) (t : Fin cfg0.N) (k j : Fin 256) : iblk m c 3 t (ix2 k j) = V m c main_v22 (ix2 k j) := by
  obtain ⟨f90, f91, f00, f01, f10, f11, f20, f21, f30, f31, f40, f41, f50, f51, f60, f61, f70, f71, f80, f81⟩ := idx_facts t
  show V m c main_v22 (((cfg0.win 3).blk t).view.emb (ix2 k j)) = _
  refine congrArg (V m c main_v22) (funext fun a => Fin.ext ?_)
  match a with
  | ⟨0, _⟩ =>
    show win0_3.index t (0 : Fin 2) * 256 + 1 * k.val = k.val
    omega
  | ⟨1, _⟩ =>
    show win0_3.index t (1 : Fin 2) * 256 + 1 * j.val = j.val
    omega

/-- Every point's block of the second weight block is the whole array. -/
theorem whole4 (c : Dev nD) (t : Fin cfg0.N) (k j : Fin 256) : iblk m c 4 t (ix2 k j) = V m c main_v23 (ix2 k j) := by
  obtain ⟨f90, f91, f00, f01, f10, f11, f20, f21, f30, f31, f40, f41, f50, f51, f60, f61, f70, f71, f80, f81⟩ := idx_facts t
  show V m c main_v23 (((cfg0.win 4).blk t).view.emb (ix2 k j)) = _
  refine congrArg (V m c main_v23) (funext fun a => Fin.ext ?_)
  match a with
  | ⟨0, _⟩ =>
    show win0_4.index t (0 : Fin 2) * 256 + 1 * k.val = k.val
    omega
  | ⟨1, _⟩ =>
    show win0_4.index t (1 : Fin 2) * 256 + 1 * j.val = j.val
    omega

/-- Every point's block of the third weight block is the whole array. -/
theorem whole5 (c : Dev nD) (t : Fin cfg0.N) (k j : Fin 256) : iblk m c 5 t (ix2 k j) = V m c main_v24 (ix2 k j) := by
  obtain ⟨f90, f91, f00, f01, f10, f11, f20, f21, f30, f31, f40, f41, f50, f51, f60, f61, f70, f71, f80, f81⟩ := idx_facts t
  show V m c main_v24 (((cfg0.win 5).blk t).view.emb (ix2 k j)) = _
  refine congrArg (V m c main_v24) (funext fun a => Fin.ext ?_)
  match a with
  | ⟨0, _⟩ =>
    show win0_5.index t (0 : Fin 2) * 256 + 1 * k.val = k.val
    omega
  | ⟨1, _⟩ =>
    show win0_5.index t (1 : Fin 2) * 256 + 1 * j.val = j.val
    omega

/-- Every point's block of the first bias is the whole one-row array. -/
theorem whole6 (c : Dev nD) (t : Fin cfg0.N) (j : Fin 256) :
    iblk m c 6 t (ix2 (0 : Fin 1) j) = V m c main_v26 (ix2 (0 : Fin 1) j) := by
  obtain ⟨f90, f91, f00, f01, f10, f11, f20, f21, f30, f31, f40, f41, f50, f51, f60, f61, f70, f71, f80, f81⟩ := idx_facts t
  show V m c main_v26 (((cfg0.win 6).blk t).view.emb (ix2 (0 : Fin 1) j)) = _
  refine congrArg (V m c main_v26) (funext fun a => Fin.ext ?_)
  match a with
  | ⟨0, _⟩ =>
    show win0_6.index t (0 : Fin 2) * 1 + 1 * 0 = 0
    omega
  | ⟨1, _⟩ =>
    show win0_6.index t (1 : Fin 2) * 256 + 1 * j.val = j.val
    omega

/-- Every point's block of the second weight matrix is the whole array. -/
theorem whole7 (c : Dev nD) (t : Fin cfg0.N) (k j : Fin 256) : iblk m c 7 t (ix2 k j) = V m c main_v25 (ix2 k j) := by
  obtain ⟨f90, f91, f00, f01, f10, f11, f20, f21, f30, f31, f40, f41, f50, f51, f60, f61, f70, f71, f80, f81⟩ := idx_facts t
  show V m c main_v25 (((cfg0.win 7).blk t).view.emb (ix2 k j)) = _
  refine congrArg (V m c main_v25) (funext fun a => Fin.ext ?_)
  match a with
  | ⟨0, _⟩ =>
    show win0_7.index t (0 : Fin 2) * 256 + 1 * k.val = k.val
    omega
  | ⟨1, _⟩ =>
    show win0_7.index t (1 : Fin 2) * 256 + 1 * j.val = j.val
    omega

/-- Every point's block of the second bias is the whole one-row array. -/
theorem whole8 (c : Dev nD) (t : Fin cfg0.N) (j : Fin 256) :
    iblk m c 8 t (ix2 (0 : Fin 1) j) = V m c main_v27 (ix2 (0 : Fin 1) j) := by
  obtain ⟨f90, f91, f00, f01, f10, f11, f20, f21, f30, f31, f40, f41, f50, f51, f60, f61, f70, f71, f80, f81⟩ := idx_facts t
  show V m c main_v27 (((cfg0.win 8).blk t).view.emb (ix2 (0 : Fin 1) j)) = _
  refine congrArg (V m c main_v27) (funext fun a => Fin.ext ?_)
  match a with
  | ⟨0, _⟩ =>
    show win0_8.index t (0 : Fin 2) * 1 + 1 * 0 = 0
    omega
  | ⟨1, _⟩ =>
    show win0_8.index t (1 : Fin 2) * 256 + 1 * j.val = j.val
    omega

/-- WHAT POINT `t` WRITES BACK is block `t` of `atEntry`. -/
theorem flushed_eq (c : Dev nD) (t : Fin cfg0.N) :
    (dats m 0 c).flushed 9 t = ((cfg0.win 9).blk t).view.read (Elt Ideal) (atEntry m c) := by
  rw [Value.flushed9]
  unfold out0_9
  rw [View.canon_unit_zero zero_offsets]
  simp only [View.ld_unit_zero (S := S4000x256) zero_offsets, View.ld_unit_zero (S := S256x256) zero_offsets,
    View.ld_unit_zero (S := S1x256) zero_offsets]
  obtain ⟨f90, f91, -⟩ := idx_facts t
  funext y
  show k0_pay1 (F := Ideal) (iblk m c 0 t) (iblk m c 1 t) (iblk m c 2 t) (iblk m c 3 t) (iblk m c 4 t) (iblk m c 5 t)
      (iblk m c 6 t) (iblk m c 7 t) (iblk m c 8 t) y = atEntry m c (((cfg0.win 9).blk t).view.emb y)
  refine (Rows.pay_apply (iblk m c 0 t) (iblk m c 1 t) (iblk m c 2 t) (iblk m c 3 t) (iblk m c 4 t) (iblk m c 5 t)
      (iblk m c 6 t) (iblk m c 7 t) (iblk m c 8 t) y).trans ?_
  have hrow : ((((cfg0.win 9).blk t).view.emb y) 0).val = t.val * 4000 + (y 0).val := by
    show win0_9.index t (0 : Fin 2) * 4000 + 1 * (y 0).val = t.val * 4000 + (y 0).val
    omega
  have hq : y 1 = (((cfg0.win 9).blk t).view.emb y) 1 := Fin.ext (by
    show (y 1).val = win0_9.index t (1 : Fin 2) * 256 + 1 * (y 1).val
    omega)
  exact out_congr (fun k => tile0 m c t (y 0) k _ hrow) (fun k => tile1 m c t (y 0) k _ hrow)
    (fun k => tile2 m c t (y 0) k _ hrow) (whole3 m c t) (whole4 m c t) (whole5 m c t) (whole6 m c t) (whole7 m c t)
    (whole8 m c t) hq

/-- An index of the result array is in point `t`'s block iff each coordinate is in the block's range on its axis. -/
theorem mem_blk (t : Fin cfg0.N) (i : S300000x256.Idx) :
    i ∈ ((cfg0.win 9).blk t).view.set ↔ ∀ a : Fin 2, win0_9.index t a * S4000x256.size a ≤ (i a).val
      ∧ (i a).val < win0_9.index t a * S4000x256.size a + S4000x256.size a := by
  show i ∈ ((View.whole main_v28).slice (win0_9.rect t)).set ↔ _
  rw [View.set_slice_whole, Rect.mem_set_unit]
  exact Iff.rfl

/-- Every entry of the result array lies in some point's block: row p in block p / 4000. -/
theorem cover (i : S300000x256.Idx) :
    ∃ t : Fin cfg0.N, (cfg0.win 9).flush t = true ∧ i ∈ ((cfg0.win 9).blk t).view.set := by
  have hi0 : (i 0).val < 300000 := (i 0).isLt
  have hi1 : (i 1).val < 256 := (i 1).isLt
  have ht : (i 0).val / 4000 < cfg0.N := by show (i 0).val / 4000 < 75; omega
  obtain ⟨f90, f91, -⟩ := idx_facts ⟨(i 0).val / 4000, ht⟩
  have f90' : win0_9.index ⟨(i 0).val / 4000, ht⟩ (0 : Fin 2) = (i 0).val / 4000 := f90
  refine ⟨⟨(i 0).val / 4000, ht⟩, flush0_9 _, ?_⟩
  rw [mem_blk]
  intro a
  match a with
  | ⟨0, _⟩ =>
    show win0_9.index ⟨(i 0).val / 4000, ht⟩ (0 : Fin 2) * 4000 ≤ (i 0).val
      ∧ (i 0).val < win0_9.index ⟨(i 0).val / 4000, ht⟩ (0 : Fin 2) * 4000 + 4000
    omega
  | ⟨1, _⟩ =>
    show win0_9.index ⟨(i 0).val / 4000, ht⟩ (1 : Fin 2) * 256 ≤ (i 1).val
      ∧ (i 1).val < win0_9.index ⟨(i 0).val / 4000, ht⟩ (1 : Fin 2) * 256 + 256
    omega

/-- THE RESULT ARRAY after the run is `atEntry`. -/
theorem final (c : Dev nD) : (dats m 0 c).arrAt 9 cfg0.N = atEntry m c :=
  (dats m 0 c).arrAt_eq_of_cover 9 (atEntry m c) (fun t _ => flushed_eq m c t) cover

/-- `atEntry`, read through what the host prefix left in the region's arrays, is the edge update of the arguments. -/
theorem atEntry_eq (c : Dev nD) :
    atEntry m c = edgeOut (Ideal.ofBits .f32 0x00000000#32)
        (Entry.srcRows (m ((c : Thread nD τ).loc main_arg0)) (m ((c : Thread nD τ).loc main_arg2)))
        (Entry.dstRows (m ((c : Thread nD τ).loc main_arg0)) (m ((c : Thread nD τ).loc main_arg2)))
        (m ((c : Thread nD τ).loc main_arg1)) (m ((c : Thread nD τ).loc main_arg3)) (m ((c : Thread nD τ).loc main_arg4))
        (m ((c : Thread nD τ).loc main_arg5)) (m ((c : Thread nD τ).loc main_arg6)) := by
  funext i
  exact out_congr (fun k => Entry.src_apply m c _) (fun k => Entry.dst_apply m c _) (fun k => Entry.edge_apply m c _)
    (fun k j => Entry.w1a_apply m c k j) (fun k j => Entry.w1b_apply m c k j) (fun k j => Entry.w1c_apply m c k j)
    (fun j => Entry.b1_apply m c j) (fun k j => Entry.w2_apply m c _) (fun j => Entry.b2_apply m c j) rfl

/-- THE KERNEL'S RUN, read: the result array ends at the edge update of the arguments, the arguments unchanged. -/
theorem run : θ_run defs (onTc (τ := τ) (main (F := Ideal))) ⟨m, fun _ => 0, ρ⟩ fun r => ∀ c : Dev nD,
      r.2.mem ((c : Thread nD τ).loc main_v28) = edgeOut (Ideal.ofBits .f32 0x00000000#32)
        (Entry.srcRows (m ((c : Thread nD τ).loc main_arg0)) (m ((c : Thread nD τ).loc main_arg2)))
        (Entry.dstRows (m ((c : Thread nD τ).loc main_arg0)) (m ((c : Thread nD τ).loc main_arg2)))
        (m ((c : Thread nD τ).loc main_arg1)) (m ((c : Thread nD τ).loc main_arg3)) (m ((c : Thread nD τ).loc main_arg4))
        (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (atEntry_eq m c)), (h c).2⟩)
    (Value.run_blocks m ρ)

end Cert.KernelIdeal.Blocks

end
-- ==== Proof.LibConcatCols.lean ====
/-
  Three matrices with the same number of rows joined side by side, read at one entry.

  The concatenation along the column axis of an [n, a], an [n, b] and an [n, c] matrix, read at row p and column K, is
  the first matrix at (p, K) when K < a, the second at (p, K - a) when a <= K < a + b, and the third at (p, K - a - b)
  beyond. Stated with the column inside the piece given and the joined column tied to it by an equation of numbers.
  Generic in the extents and the element type.
-/
import Idealize.ShloMosaic.Lib.Pipeline.Value
import Idealize.ShloMosaic.Lib.ValueIdx

namespace Cert.Lib.ConcatCols

open Idealize.ShloMosaic Idealize.ShloMosaic.ValueIdx

variable {α : Type} {n a b c N : ℕ}

/-- Column `K` of the joined matrix, inside the first piece (`K = k`), is the first piece's column `k`. -/
theorem left_apply (x : (⟨2, ![n, a]⟩ : Shape).Idx → α) (y : (⟨2, ![n, b]⟩ : Shape).Idx → α)
    (z : (⟨2, ![n, c]⟩ : Shape).Idx → α)
    (h : Shape.Concatenates [⟨2, ![n, a]⟩, ⟨2, ![n, b]⟩, ⟨2, ![n, c]⟩] ⟨2, ![n, N]⟩ 1)
    (p : Fin n) (K : Fin N) (k : Fin a) (hK : K.val = k.val) :
    concatenate ⟨2, ![n, N]⟩ 1 [⟨⟨2, ![n, a]⟩, x⟩, ⟨⟨2, ![n, b]⟩, y⟩, ⟨⟨2, ![n, c]⟩, z⟩] h (ix2 p K) = x (ix2 p k) :=
  concatenate_apply_piece (t := ⟨2, ![n, N]⟩) (1 : Fin 2) [⟨⟨2, ![n, a]⟩, x⟩, ⟨⟨2, ![n, b]⟩, y⟩, ⟨⟨2, ![n, c]⟩, z⟩] h (ix2 p K) 0 (by show 0 < 3; omega) ⟨2, ![n, a]⟩ x rfl rfl 0 rfl (ix2 p k)
    (fun ax hax => by
      match ax with
      | ⟨0, _⟩ => rfl
      | ⟨1, _⟩ => exact absurd rfl hax)
    (by show 0 + k.val = K.val; omega)

/-- Column `K` of the joined matrix, inside the second piece (`K = a + k`), is the second piece's column `k`. -/
theorem mid_apply (x : (⟨2, ![n, a]⟩ : Shape).Idx → α) (y : (⟨2, ![n, b]⟩ : Shape).Idx → α)
    (z : (⟨2, ![n, c]⟩ : Shape).Idx → α)
    (h : Shape.Concatenates [⟨2, ![n, a]⟩, ⟨2, ![n, b]⟩, ⟨2, ![n, c]⟩] ⟨2, ![n, N]⟩ 1)
    (p : Fin n) (K : Fin N) (k : Fin b) (hK : K.val = a + k.val) :
    concatenate ⟨2, ![n, N]⟩ 1 [⟨⟨2, ![n, a]⟩, x⟩, ⟨⟨2, ![n, b]⟩, y⟩, ⟨⟨2, ![n, c]⟩, z⟩] h (ix2 p K) = y (ix2 p k) :=
  concatenate_apply_piece (t := ⟨2, ![n, N]⟩) (1 : Fin 2) [⟨⟨2, ![n, a]⟩, x⟩, ⟨⟨2, ![n, b]⟩, y⟩, ⟨⟨2, ![n, c]⟩, z⟩] h (ix2 p K) 1 (by show 1 < 3; omega) ⟨2, ![n, b]⟩ y rfl rfl a (by simp) (ix2 p k)
    (fun ax hax => by
      match ax with
      | ⟨0, _⟩ => rfl
      | ⟨1, _⟩ => exact absurd rfl hax)
    (by show a + k.val = K.val; omega)

/-- Column `K` of the joined matrix, inside the third piece (`K = a + b + k`), is the third piece's column `k`. -/
theorem right_apply (x : (⟨2, ![n, a]⟩ : Shape).Idx → α) (y : (⟨2, ![n, b]⟩ : Shape).Idx → α)
    (z : (⟨2, ![n, c]⟩ : Shape).Idx → α)
    (h : Shape.Concatenates [⟨2, ![n, a]⟩, ⟨2, ![n, b]⟩, ⟨2, ![n, c]⟩] ⟨2, ![n, N]⟩ 1)
    (p : Fin n) (K : Fin N) (k : Fin c) (hK : K.val = a + b + k.val) :
    concatenate ⟨2, ![n, N]⟩ 1 [⟨⟨2, ![n, a]⟩, x⟩, ⟨⟨2, ![n, b]⟩, y⟩, ⟨⟨2, ![n, c]⟩, z⟩] h (ix2 p K) = z (ix2 p k) :=
  concatenate_apply_piece (t := ⟨2, ![n, N]⟩) (1 : Fin 2) [⟨⟨2, ![n, a]⟩, x⟩, ⟨⟨2, ![n, b]⟩, y⟩, ⟨⟨2, ![n, c]⟩, z⟩] h (ix2 p K) 2 (by show 2 < 3; omega) ⟨2, ![n, c]⟩ z rfl rfl (a + b) (by simp) (ix2 p k)
    (fun ax hax => by
      match ax with
      | ⟨0, _⟩ => rfl
      | ⟨1, _⟩ => exact absurd rfl hax)
    (by show a + b + k.val = K.val; omega)

end Cert.Lib.ConcatCols
-- ==== Proof.RefRows.lean ====
/-
  The reference program's result is the edge update `EdgeMlp.edgeOut` of its arguments.

  The reference gathers the source and the destination rows, joins them with the edge rows into [E, 768], multiplies by
  the whole first weight matrix, adds the bias, takes the ramp against the zero word, multiplies by the second weight
  matrix and adds the second bias. Read at one entry (p, j): the second product is a sum over the 256 hidden units of edge
  p; each hidden unit is the ramp of a sum over the 768 joined positions, and that sum is the three block sums
  (`EdgeMlp.joined_dot`), the joined row holding the source row at 0..255, the destination row at 256..511 and the edge
  row at 512..767. The two gathers are kept as the arrays they are: the kernel's program gathers by the same operations.
-/
import proofs.«144119_j45509473468801_1_alg».proof.Proof.Gen.ReferenceIdeal.Read
import proofs.«144119_j45509473468801_1_alg».proof.Proof.EdgeMlp
import proofs.«144119_j45509473468801_1_alg».proof.Proof.LibConcatCols
import Idealize.ShloMosaic.Lib.ValueIdx

noncomputable section

namespace Cert.ReferenceIdeal.RefRows

open Cert.ReferenceIdeal Cert.ReferenceIdeal.Gen Cert.ReferenceIdeal.Read Idealize.ShloMosaic Idealize.ShloMosaic.ValueIdx
open Cert.EdgeMlp

variable (x0 : (⟨S50000x256, .f32⟩ : BufTy).Contents (Elt Ideal)) (x1 : (⟨S300000x256, .f32⟩ : BufTy).Contents (Elt Ideal))
  (x2 : (⟨S2x300000, .i32⟩ : BufTy).Contents (Elt Ideal)) (x3 : (⟨S768x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal))

/-- Row p of the joined array holds row p of the gathered source rows at its first 256 positions. -/
theorem joined_src (p : Fin 300000) (k : Fin 256) :
    val_main_v18 (F := Ideal) x0 x1 x2 (ix2 p (inSrc k)) = val_main_v8 (F := Ideal) x0 x2 (ix2 p k) := by
  unfold val_main_v18
  exact Cert.Lib.ConcatCols.left_apply _ _ _ _ p (inSrc k) k rfl

/-- Row p of the joined array holds row p of the gathered destination rows at positions 256..511. -/
theorem joined_dst (p : Fin 300000) (k : Fin 256) :
    val_main_v18 (F := Ideal) x0 x1 x2 (ix2 p (inDst k)) = val_main_v17 (F := Ideal) x0 x2 (ix2 p k) := by
  unfold val_main_v18
  exact Cert.Lib.ConcatCols.mid_apply _ _ _ _ p (inDst k) k rfl

/-- Row p of the joined array holds row p of the edge features at positions 512..767. -/
theorem joined_edge (p : Fin 300000) (k : Fin 256) :
    val_main_v18 (F := Ideal) x0 x1 x2 (ix2 p (inEdge k)) = x1 (ix2 p k) := by
  unfold val_main_v18
  exact Cert.Lib.ConcatCols.right_apply _ _ _ _ p (inEdge k) k rfl

/-- Hidden unit j of edge p: the ramp of the joined row against column j of the first weight matrix plus the bias, the
    768-term sum regrouped into its three blocks. -/
theorem hidden_eq (p : Fin 300000) (j : Fin 256) :
    val_main_v23 (F := Ideal) x0 x1 x2 x3 x4 (ix2 p j)
      = hidden (Ideal.ofBits .f32 0x00000000#32) (fun k => val_main_v8 (F := Ideal) x0 x2 (ix2 p k))
          (fun k => val_main_v17 (F := Ideal) x0 x2 (ix2 p k)) (fun k => x1 (ix2 p k))
          (fun k j => x3 (ix2 (inSrc k) j)) (fun k j => x3 (ix2 (inDst k) j)) (fun k j => x3 (ix2 (inEdge k) j))
          (fun j => x4 (ix1 j)) j := by
  rw [val_main_v23_apply, val_main_v22_apply, val_main_v19_apply, val_main_v21_apply, val_main_v20_apply,
    val_main_call0_v0_apply, val_main_call0_cst_apply]
  have el : ∀ K : Fin 768, lidx_main_v19 (ix2 p j) K = ix2 p K := fun K => funext fun a => Fin.ext (by
    match a with
    | ⟨0, _⟩ => rfl
    | ⟨1, _⟩ => rfl)
  have er : ∀ K : Fin 768, ridx_main_v19 (ix2 p j) K = ix2 K j := fun K => funext fun a => Fin.ext (by
    match a with
    | ⟨0, _⟩ => rfl
    | ⟨1, _⟩ => rfl)
  have eb : idx_main_v20 (idx_main_v21 (ix2 p j)) = ix1 j := funext fun a => Fin.ext (by
    match a with
    | ⟨0, _⟩ => rfl)
  simp only [el, er, eb, Ideal.addf_def, Ideal.maximumf_def, Ideal.ofBits_def]
  have hdot := joined_dot (fun K => val_main_v18 (F := Ideal) x0 x1 x2 (ix2 p K))
    (fun k => val_main_v8 (F := Ideal) x0 x2 (ix2 p k)) (fun k => val_main_v17 (F := Ideal) x0 x2 (ix2 p k))
    (fun k => x1 (ix2 p k)) (fun K j => x3 (ix2 K j)) j
    (joined_src x0 x1 x2 p) (joined_dst x0 x1 x2 p) (joined_edge x0 x1 x2 p)
  exact congrArg (fun t => max (t + x4 (ix1 j)) (Ideal.ofBits .f32 0x00000000#32)) hdot

/-- THE REFERENCE'S RESULT, entry by entry, is the edge update of the gathered rows, the edge rows and the weights. -/
theorem result_eq :
    val_main_v27 (F := Ideal) x0 x1 x2 x3 x4 x5 x6
      = edgeOut (Ideal.ofBits .f32 0x00000000#32) (val_main_v8 (F := Ideal) x0 x2) (val_main_v17 (F := Ideal) x0 x2)
          x1 x3 x4 x5 x6 := by
  funext i
  obtain ⟨p, q, rfl⟩ : ∃ (p : Fin 300000) (q : Fin 256), i = ix2 p q := ⟨i 0, i 1, eq_ix2 i⟩
  rw [val_main_v27_apply, val_main_v24_apply, val_main_v26_apply, val_main_v25_apply]
  have el : ∀ k : Fin 256, lidx_main_v24 (ix2 p q) k = ix2 p k := fun k => funext fun a => Fin.ext (by
    match a with
    | ⟨0, _⟩ => rfl
    | ⟨1, _⟩ => rfl)
  have er : ∀ k : Fin 256, ridx_main_v24 (ix2 p q) k = ix2 k q := fun k => funext fun a => Fin.ext (by
    match a with
    | ⟨0, _⟩ => rfl
    | ⟨1, _⟩ => rfl)
  have eb : idx_main_v25 (idx_main_v26 (ix2 p q)) = ix1 q := funext fun a => Fin.ext (by
    match a with
    | ⟨0, _⟩ => rfl)
  simp only [el, er, eb, Ideal.addf_def, hidden_eq]
  rfl

end Cert.ReferenceIdeal.RefRows

end
-- ==== Proof.lean ====
/-
  The edge update of a message-passing layer: the tiled kernel against the plain reference, over the extended reals.

  Both programs gather, for each of the 300000 edges, the feature row of its source node and of its destination node (an
  index below zero wrapped by the number of nodes first), and apply to the three rows of an edge — source, destination and
  the edge's own — a dense layer 768 -> 256 with a ramp and a dense layer 256 -> 256. The reference joins the three rows
  into one of length 768 and multiplies by the whole first weight matrix; the kernel, 4000 edges at a grid point,
  multiplies each row by its own block of 256 rows of that matrix and adds the three products. Over the extended reals
  the narrowing to a shorter float format is the identity and the two sums are one sum regrouped, so both results are
  `EdgeMlp.edgeOut` of the arguments:

    * Proof/EdgeMlp.lean       the update as a function of rows, and the regrouping of the 768-term sum;
    * Proof/RefRows.lean       the reference's result is that function (over the generated read-back of its run);
    * Proof/KernelRows.lean    what the kernel's body stores, at one entry, is that function of the rows it loaded;
    * Proof/KernelEntry.lean   the arrays the region is launched on, in terms of the arguments;
    * Proof/KernelBlocks.lean  the 75 blocks cover the result array, which so ends at that function of the arguments.

  The gathers are never opened: the two programs gather by the same operations, so the gathered rows are the same
  arrays. No finiteness of the inputs is used. The ideal pass rewrote nothing, so the idealization claim is trivial; the
  three frames are the generated ones (the reference's is its generated run with the result dropped).
-/
import proofs.«144119_j45509473468801_1_alg».proof.Defs
import proofs.«144119_j45509473468801_1_alg».proof.Proof.Gen.Kernel
import proofs.«144119_j45509473468801_1_alg».proof.Proof.Gen.Kernel.Skeleton
import proofs.«144119_j45509473468801_1_alg».proof.Proof.Gen.Kernel.Launch
import proofs.«144119_j45509473468801_1_alg».proof.Proof.Gen.Kernel.Points
import proofs.«144119_j45509473468801_1_alg».proof.Proof.Gen.Kernel.Frame
import proofs.«144119_j45509473468801_1_alg».proof.Proof.Gen.KernelIdeal
import proofs.«144119_j45509473468801_1_alg».proof.Proof.Gen.KernelIdeal.Skeleton
import proofs.«144119_j45509473468801_1_alg».proof.Proof.Gen.KernelIdeal.Launch
import proofs.«144119_j45509473468801_1_alg».proof.Proof.Gen.KernelIdeal.Points
import proofs.«144119_j45509473468801_1_alg».proof.Proof.Gen.KernelIdeal.Frame
import proofs.«144119_j45509473468801_1_alg».proof.Proof.Gen.ReferenceIdeal
import proofs.«144119_j45509473468801_1_alg».proof.Proof.Gen.Pre_finite_inputs
import proofs.«144119_j45509473468801_1_alg».proof.Proof.Gen.KernelIdeal.Value
import proofs.«144119_j45509473468801_1_alg».proof.Proof.Gen.ReferenceIdeal.Run
import proofs.«144119_j45509473468801_1_alg».proof.Proof.Gen.ReferenceIdeal.Read
import proofs.«144119_j45509473468801_1_alg».proof.Proof.KernelBlocks
import proofs.«144119_j45509473468801_1_alg».proof.Proof.RefRows
import Idealize.ShloMosaic.Adequacy
import Idealize.ShloMosaic.Init

noncomputable section

namespace Cert.Proof

open Idealize.ShloMosaic Idealize.ShloMosaic.TcCoe Idealize.SL.Sem

/-- The kernel's program and the reference gather the source rows by the same operations. -/
theorem srcRows_eq (x0 : (⟨Cert.ReferenceIdeal.S50000x256, .f32⟩ : BufTy).Contents (Elt Ideal))
    (x2 : (⟨Cert.ReferenceIdeal.S2x300000, .i32⟩ : BufTy).Contents (Elt Ideal)) :
    Cert.ReferenceIdeal.Read.val_main_v8 (F := Ideal) x0 x2 = Cert.KernelIdeal.Entry.srcRows x0 x2 := rfl

/-- And the destination rows. -/
theorem dstRows_eq (x0 : (⟨Cert.ReferenceIdeal.S50000x256, .f32⟩ : BufTy).Contents (Elt Ideal))
    (x2 : (⟨Cert.ReferenceIdeal.S2x300000, .i32⟩ : BufTy).Contents (Elt Ideal)) :
    Cert.ReferenceIdeal.Read.val_main_v17 (F := Ideal) x0 x2 = Cert.KernelIdeal.Entry.dstRows x0 x2 := rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel's result array ends at the edge update of the arguments (Proof/KernelBlocks.lean), the
    reference's at its run's term, which is the same function (Proof/RefRows.lean) of arguments that agree. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefRows.result_eq, srcRows_eq, dstRows_eq,
    (hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
